-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x5x64 : Shape := ⟨3, ![32768, 5, 64]⟩
abbrev S32768x5 : Shape := ⟨2, ![32768, 5]⟩
abbrev S64x64 : Shape := ⟨2, ![64, 64]⟩
abbrev S64 : Shape := ⟨1, ![64]⟩
abbrev S320x128 : Shape := ⟨2, ![320, 128]⟩
abbrev S128 : Shape := ⟨1, ![128]⟩
abbrev S_ : Shape := ⟨0, ![]⟩

class Facts : Prop where
  bcast_S_S32768x5x64 : S_.BroadcastsInDim S32768x5x64 (![] : Fin 0 → Fin S32768x5x64.rank)
  reducesTo_S32768x5x64_S_d0_1_2 : S32768x5x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S320x128 1) : IVec S_ 1 :=
  let main_c_5 : IVec S_ 1 := constantI S_ 1 1#1
  let main_v17 : IVec S_ 1 := (fun x v => Host.reduce IntOp.andi x v reducesTo_S320x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32768x5x64 .f32) (main_arg1 : IVec S32768x5 32) (main_arg2 : FVec F S64x64 .f32) (main_arg3 : FVec F S64 .f32) (main_arg4 : FVec F S320x128 .f32) (main_arg5 : FVec F S128 .f32) : IVec S_ 1 :=
  let main_v0 : FVec F S32768x5x64 .f32 := Host.absf main_arg0
  let main_cst : FVec F S_ .f32 := constant S_ .f32 0x7F800000#32
  let main_v1 : FVec F S32768x5x64 .f32 := broadcastInDim S32768x5x64 ![] bcast_S_S32768x5x64 main_cst
  let main_v2 : IVec S32768x5x64 1 := cmpf .olt main_v0 main_v1
  let main_c : IVec S_ 1 := constantI S_ 1 1#1
  let main_v3 : IVec S_ 1 := (fun x v => Host.reduce IntOp.andi x v reducesTo_S32768x5x64_S_d0_1_2 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S320x128 .f32 := Host.absf main_arg4
  let main_cst_4 : FVec F S_ .f32 := constant S_ .f32 0x7F800000#32
  let main_v15 : FVec F S320x128 .f32 := broadcastInDim S320x128 ![] bcast_S_S320x128 main_cst_4
  let main_v16 : IVec S320x128 1 := cmpf .olt main_v14 main_v15
  fn_part1 (F := F) main_arg5 main_v13 main_v16
-- ==== Kernel.lean ====
abbrev S32768x5x64 : Shape := ⟨3, ![32768, 5, 64]⟩
abbrev S32768x5 : Shape := ⟨2, ![32768, 5]⟩
abbrev S64x64 : Shape := ⟨2, ![64, 64]⟩
abbrev S64 : Shape := ⟨1, ![64]⟩
abbrev S320x128 : Shape := ⟨2, ![320, 128]⟩
abbrev S128 : Shape := ⟨1, ![128]⟩
abbrev S5x64x32768 : Shape := ⟨3, ![5, 64, 32768]⟩
abbrev S5x32768 : Shape := ⟨2, ![5, 32768]⟩
abbrev S5x64x128 : Shape := ⟨3, ![5, 64, 128]⟩
abbrev S64x1 : Shape := ⟨2, ![64, 1]⟩
abbrev S128x1 : Shape := ⟨2, ![128, 1]⟩
abbrev S32768x128 : Shape := ⟨2, ![32768, 128]⟩
abbrev S5x64x2048 : Shape := ⟨3, ![5, 64, 2048]⟩
abbrev S5x2048 : Shape := ⟨2, ![5, 2048]⟩
abbrev S2048x128 : Shape := ⟨2, ![2048, 128]⟩
abbrev S128x2048 : Shape := ⟨2, ![128, 2048]⟩
abbrev S1x64x2048 : Shape := ⟨3, ![1, 64, 2048]⟩
abbrev S64x2048 : Shape := ⟨2, ![64, 2048]⟩
abbrev S1x2048 : Shape := ⟨2, ![1, 2048]⟩
abbrev S1x64x128 : Shape := ⟨3, ![1, 64, 128]⟩
abbrev S64x128 : Shape := ⟨2, ![64, 128]⟩

abbrev nBuf : Space → Nat
  | .hbm => 12
  | .vmem => 10
  | .smem => 0
  | _ => 0

abbrev bufTy : (tb : Table) → Fin (tcTables nBuf tb) → BufTy
  | .hbm, ⟨0, _⟩ => ⟨S32768x5x64, .f32⟩
  | .hbm, ⟨1, _⟩ => ⟨S32768x5, .i32⟩
  | .hbm, ⟨2, _⟩ => ⟨S64x64, .f32⟩
  | .hbm, ⟨3, _⟩ => ⟨S64, .f32⟩
  | .hbm, ⟨4, _⟩ => ⟨S320x128, .f32⟩
  | .hbm, ⟨5, _⟩ => ⟨S128, .f32⟩
  | .hbm, ⟨6, _⟩ => ⟨S5x64x32768, .f32⟩
  | .hbm, ⟨7, _⟩ => ⟨S5x32768, .i32⟩
  | .hbm, ⟨8, _⟩ => ⟨S5x64x128, .f32⟩
  | .hbm, ⟨9, _⟩ => ⟨S64x1, .f32⟩
  | .hbm, ⟨10, _⟩ => ⟨S128x1, .f32⟩
  | .hbm, ⟨11, _⟩ => ⟨S32768x128, .f32⟩
  | .local _ .vmem, ⟨0, _⟩ => ⟨S5x64x2048, .f32⟩
  | .local _ .vmem, ⟨1, _⟩ => ⟨S5x64x2048, .f32⟩
  | .local _ .vmem, ⟨2, _⟩ => ⟨S5x2048, .i32⟩
  | .local _ .vmem, ⟨3, _⟩ => ⟨S5x2048, .i32⟩
  | .local _ .vmem, ⟨4, _⟩ => ⟨S64x64, .f32⟩
  | .local _ .vmem, ⟨5, _⟩ => ⟨S64x1, .f32⟩
  | .local _ .vmem, ⟨6, _⟩ => ⟨S5x64x128, .f32⟩
  | .local _ .vmem, ⟨7, _⟩ => ⟨S128x1, .f32⟩
  | .local _ .vmem, ⟨8, _⟩ => ⟨S2048x128, .f32⟩
  | .local _ .vmem, ⟨9, _⟩ => ⟨S2048x128, .f32⟩
  | _, _ => ⟨S32768x5x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S32768x5x64_S5x64x32768_1_2_0 : S32768x5x64.Transposes [1, 2, 0] S5x64x32768
  transposes_S32768x5_S5x32768_1_0 : S32768x5.Transposes [1, 0] S5x32768
  shapeCasts_S320x128_S5x64x128 : S320x128.ShapeCasts S5x64x128
  shapeCasts_S64_S64x1 : S64.ShapeCasts S64x1
  shapeCasts_S128_S128x1 : S128.ShapeCasts S128x1
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S5x64x2048_S1x64x2048_0_0_0 : ∀ a, (![0, 0, 0] : Fin 3 → Nat) a + S1x64x2048.size a ≤ S5x64x2048.size a
  h_S1x64x2048 : 0 < S1x64x2048.numel
  shapeCasts_S1x64x2048_S64x2048 : S1x64x2048.ShapeCasts S64x2048
  broadcasts_S64x1_S64x2048 : S64x1.Broadcasts S64x2048
  inb_S5x2048_S1x2048_0_0 : ∀ a, (![0, 0] : Fin 2 → Nat) a + S1x2048.size a ≤ S5x2048.size a
  h_S1x2048 : 0 < S1x2048.numel
  shapeCasts_S1x2048_S1x2048 : S1x2048.ShapeCasts S1x2048
  broadcasts_S1x2048_S64x2048 : S1x2048.Broadcasts S64x2048
  inb_S5x64x128_S1x64x128_0_0_0 : ∀ a, (![0, 0, 0] : Fin 3 → Nat) a + S1x64x128.size a ≤ S5x64x128.size a
  h_S1x64x128 : 0 < S1x64x128.numel
  shapeCasts_S1x64x128_S64x128 : S1x64x128.ShapeCasts S64x128
  inb_S5x64x2048_S1x64x2048_1_0_0 : ∀ a, (![1, 0, 0] : Fin 3 → Nat) a + S1x64x2048.size a ≤ S5x64x2048.size a
  inb_S5x2048_S1x2048_1_0 : ∀ a, (![1, 0] : Fin 2 → Nat) a + S1x2048.size a ≤ S5x2048.size a
  inb_S5x64x128_S1x64x128_1_0_0 : ∀ a, (![1, 0, 0] : Fin 3 → Nat) a + S1x64x128.size a ≤ S5x64x128.size a
  inb_S5x64x2048_S1x64x2048_2_0_0 : ∀ a, (![2, 0, 0] : Fin 3 → Nat) a + S1x64x2048.size a ≤ S5x64x2048.size a
  inb_S5x2048_S1x2048_2_0 : ∀ a, (![2, 0] : Fin 2 → Nat) a + S1x2048.size a ≤ S5x2048.size a
  inb_S5x64x128_S1x64x128_2_0_0 : ∀ a, (![2, 0, 0] : Fin 3 → Nat) a + S1x64x128.size a ≤ S5x64x128.size a
  inb_S5x64x2048_S1x64x2048_3_0_0 : ∀ a, (![3, 0, 0] : Fin 3 → Nat) a + S1x64x2048.size a ≤ S5x64x2048.size a
  inb_S5x2048_S1x2048_3_0 : ∀ a, (![3, 0] : Fin 2 → Nat) a + S1x2048.size a ≤ S5x2048.size a
  inb_S5x64x128_S1x64x128_3_0_0 : ∀ a, (![3, 0, 0] : Fin 3 → Nat) a + S1x64x128.size a ≤ S5x64x128.size a
  inb_S5x64x2048_S1x64x2048_4_0_0 : ∀ a, (![4, 0, 0] : Fin 3 → Nat) a + S1x64x2048.size a ≤ S5x64x2048.size a
  inb_S5x2048_S1x2048_4_0 : ∀ a, (![4, 0] : Fin 2 → Nat) a + S1x2048.size a ≤ S5x2048.size a
  inb_S5x64x128_S1x64x128_4_0_0 : ∀ a, (![4, 0, 0] : Fin 3 → Nat) a + S1x64x128.size a ≤ S5x64x128.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x2048 : S128x1.Broadcasts S128x2048
  transposes_S128x2048_p1_0_S2048x128 : S128x2048.Transposes [1, 0] S2048x128
  inb_S2048x128_S2048x128_0_0 : ∀ a, (![0, 0] : Fin 2 → Nat) a + S2048x128.size a ≤ S2048x128.size a
  h_S2048x128 : 0 < S2048x128.numel
  dot_S64x64_S64x2048_S64x2048_0_0_1_1_n_n_wf : DotDims.WF S64x64 S64x2048 S64x2048 [0] [0] [1] [1] [] []
  dot_S64x128_S64x2048_S128x2048_0_0_1_1_n_n_wf : DotDims.WF S64x128 S64x2048 S128x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x64x2048.size a ≤ S5x64x32768.size a
  hwx0_0 : ∀ i : grid0.Coords, EltTy.bits .f32 = 32 ∨ (Rect.block (s := S5x64x32768) S5x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x2048.size a ≤ S5x32768.size a
  hwx0_1 : ∀ i : grid0.Coords, EltTy.bits .i32 = 32 ∨ (Rect.block (s := S5x32768) S5x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x64x128.size a ≤ S5x64x128.size a
  hwx0_4 : ∀ i : grid0.Coords, EltTy.bits .f32 = 32 ∨ (Rect.block (s := S5x64x128) S5x64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S32768x128.size a
  hwx0_6 : ∀ i : grid0.Coords, EltTy.bits .f32 = 32 ∨ (Rect.block (s := S32768x128) S2048x128.size (cc0_transform_6 i) (hinb0_6 i)).WholeWords (EltTy.packing .f32)

variable [Facts₀]

def dot_S64x64_S64x2048_S64x2048_0_0_1_1_n_n : DotDims S64x64 S64x2048 S64x2048 where
  lhsContracting := [0]
  rhsContracting := [0]
  lhsNonContracting := [1]
  rhsNonContracting := [1]
  lhsBatch := []
  rhsBatch := []
  wf := dot_S64x64_S64x2048_S64x2048_0_0_1_1_n_n_wf
def dot_S64x128_S64x2048_S128x2048_0_0_1_1_n_n : DotDims S64x128 S64x2048 S128x2048 where
  lhsContracting := [0]
  rhsContracting := [0]
  lhsNonContracting := [1]
  rhsNonContracting := [1]
  lhsBatch := []
  rhsBatch := []
  wf := dot_S64x128_S64x2048_S128x2048_0_0_1_1_n_n_wf

abbrev win0_0 : Pipeline.Window sig grid0 :=
  Pipeline.Window.ofSpec (Memref.whole main_call0_v0) S5x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S5x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S5x64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x5x64 : Shape := ⟨3, ![32768, 5, 64]⟩
abbrev S32768x5 : Shape := ⟨2, ![32768, 5]⟩
abbrev S64x64 : Shape := ⟨2, ![64, 64]⟩
abbrev S64 : Shape := ⟨1, ![64]⟩
abbrev S320x128 : Shape := ⟨2, ![320, 128]⟩
abbrev S128 : Shape := ⟨1, ![128]⟩
abbrev S1x1x64 : Shape := ⟨3, ![1, 1, 64]⟩
abbrev S_ : Shape := ⟨0, ![]⟩
abbrev S32768x5x1 : Shape := ⟨3, ![32768, 5, 1]⟩
abbrev S32768x320 : Shape := ⟨2, ![32768, 320]⟩
abbrev S32768x128 : Shape := ⟨2, ![32768, 128]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S32768x5x64, .f32⟩
  | .hbm, ⟨1, _⟩ => ⟨S32768x5, .i32⟩
  | .hbm, ⟨2, _⟩ => ⟨S64x64, .f32⟩
  | .hbm, ⟨3, _⟩ => ⟨S64, .f32⟩
  | .hbm, ⟨4, _⟩ => ⟨S320x128, .f32⟩
  | .hbm, ⟨5, _⟩ => ⟨S128, .f32⟩
  | .hbm, ⟨6, _⟩ => ⟨S32768x5x64, .f32⟩
  | .hbm, ⟨7, _⟩ => ⟨S1x1x64, .f32⟩
  | .hbm, ⟨8, _⟩ => ⟨S32768x5x64, .f32⟩
  | .hbm, ⟨9, _⟩ => ⟨S32768x5x64, .f32⟩
  | .hbm, ⟨10, _⟩ => ⟨S_, .f32⟩
  | .hbm, ⟨11, _⟩ => ⟨S32768x5x64, .f32⟩
  | .hbm, ⟨12, _⟩ => ⟨S32768x5x64, .f32⟩
  | .hbm, ⟨13, _⟩ => ⟨S32768x5, .f32⟩
  | .hbm, ⟨14, _⟩ => ⟨S32768x5x1, .f32⟩
  | .hbm, ⟨15, _⟩ => ⟨S32768x5x64, .f32⟩
  | .hbm, ⟨16, _⟩ => ⟨S32768x5x64, .f32⟩
  | .hbm, ⟨17, _⟩ => ⟨S32768x320, .f32⟩
  | .hbm, ⟨18, _⟩ => ⟨S32768x128, .f32⟩
  | .hbm, ⟨19, _⟩ => ⟨S1x128, .f32⟩
  | .hbm, ⟨20, _⟩ => ⟨S32768x128, .f32⟩
  | .hbm, ⟨21, _⟩ => ⟨S32768x128, .f32⟩
  | .hbm, ⟨22, _⟩ => ⟨S_, .f32⟩
  | .hbm, ⟨23, _⟩ => ⟨S32768x128, .f32⟩
  | .hbm, ⟨24, _⟩ => ⟨S32768x128, .f32⟩
  | _, _ => ⟨S32768x5x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_cst : Ref sig .tc := ⟨.hbm, 22, rfl⟩
abbrev main_call1_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S32768x5x64_0_1_2 : S1x1x64.BroadcastsInDim S32768x5x64 (![0, 1, 2] : Fin 3 → Fin S32768x5x64.rank)
  bcast_S_S32768x5x64 : S_.BroadcastsInDim S32768x5x64 (![] : Fin 0 → Fin S32768x5x64.rank)
  bcast_S32768x5_S32768x5x1_0_1 : S32768x5.BroadcastsInDim S32768x5x1 (![0, 1] : Fin 2 → Fin S32768x5x1.rank)
  bcast_S32768x5x1_S32768x5x64_0_1_2 : S32768x5x1.BroadcastsInDim S32768x5x64 (![0, 1, 2] : Fin 3 → Fin S32768x5x64.rank)
  shapeCasts_S32768x5x64_S32768x320 : S32768x5x64.ShapeCasts S32768x320
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  dot_S32768x5x64_S64x64_S32768x5x64_2_0_01_1_n_n_wf : DotDims.WF S32768x5x64 S64x64 S32768x5x64 [2] [0] [0, 1] [1] [] []
  dot_S32768x320_S320x128_S32768x128_1_0_0_1_n_n_wf : DotDims.WF S32768x320 S320x128 S32768x128 [1] [0] [0] [1] [] []

variable [Facts₀]

def dot_S32768x5x64_S64x64_S32768x5x64_2_0_01_1_n_n : DotDims S32768x5x64 S64x64 S32768x5x64 where
  lhsContracting := [2]
  rhsContracting := [0]
  lhsNonContracting := [0, 1]
  rhsNonContracting := [1]
  lhsBatch := []
  rhsBatch := []
  wf := dot_S32768x5x64_S64x64_S32768x5x64_2_0_01_1_n_n_wf
def dot_S32768x320_S320x128_S32768x128_1_0_0_1_n_n : DotDims S32768x320 S320x128 S32768x128 where
  lhsContracting := [1]
  rhsContracting := [0]
  lhsNonContracting := [0]
  rhsNonContracting := [1]
  lhsBatch := []
  rhsBatch := []
  wf := dot_S32768x320_S320x128_S32768x128_1_0_0_1_n_n_wf

class Facts : Prop extends Facts₀ where

variable [Facts]
-- ==== Proof.SlotSum.lean ====
/-
  The specification of the sample encoder, entry by entry, with no program in sight.

  For one sample `b` and one output feature `s` the result is
      relu( Σ_{k < 320} code(k / 64, k % 64) · W_red[k, s] + b_red[s] ),
      code(n, d) = relu( Σ_{f < 64} counts[b, n, f] · W_map[f, d] + b_map[d] ) · mask[b, n],
  the 320 columns being the five count slots' 64-wide encodings laid side by side (`concatForm`).
  The same number is reached slot by slot (`bandForm`): slot `n` contributes
      Σ_{d < 64} W_red[64 n + d, s] · code(n, d)
  with each product's factors in the other order, and the five contributions are added one after another to a
  zero accumulator before the bias and the final relu.  The two agree on the extended reals because only
  commutativity and associativity of `+` and `·` are used: a sum over `Fin 320` is the iterated sum over
  `Fin 5 × Fin 64` along `k = 64 n + d`, and `0 + x = x`.  No finiteness is needed.
-/
import Idealize.ShloMosaic.PureOps.Ideal
import Idealize.ShloMosaic.PureOps.Ideal.Laws
import Idealize.ShloMosaic.Lib.ValueIdx

noncomputable section

open scoped BigOperators

namespace Cert.MapSample

open Idealize.ShloMosaic

/-- The float zero word both programs clamp against and the kernel starts its accumulator from. -/
abbrev zeroWord : EReal := Ideal.ofBits .f32 0x00000000#32

/-- A sum over the 320 concatenated columns is the sum over the five slots of the sum over a slot's 64 columns,
    column `k` being column `k % 64` of slot `k / 64`. -/
theorem sum_columns_eq_sum_slots {M : Type*} [AddCommMonoid M] (F : Fin 5 → Fin 64 → M) :
    ∑ k : Fin 320, F ⟨k.val / 64, by have := k.isLt; omega⟩ ⟨k.val % 64, by have := k.isLt; omega⟩
      = ∑ n : Fin 5, ∑ d : Fin 64, F n d := by
  rw [← Fintype.sum_prod_type' (f := F)]
  exact Fintype.sum_equiv (finProdFinEquiv (m := 5) (n := 64)).symm _ _ (fun k => rfl)

section Entry

variable (c : Fin 5 → Fin 64 → EReal) (μ : Fin 5 → EReal) (wm : Fin 64 → Fin 64 → EReal) (bm : Fin 64 → EReal)
  (wr : Fin 320 → EReal) (br : EReal)

/-- Column `d` of slot `n`'s encoding: the clamped affine image of the slot's raw counts, times the slot's
    observed flag. -/
def code (n : Fin 5) (d : Fin 64) : EReal :=
  max ((∑ f : Fin 64, c n f * wm f d) + bm d) zeroWord * μ n

/-- The entry as the reference computes it: one contraction over the 320 concatenated columns. -/
def concatForm : EReal :=
  max ((∑ k : Fin 320, code c μ wm bm ⟨k.val / 64, by have := k.isLt; omega⟩ ⟨k.val % 64, by have := k.isLt; omega⟩ * wr k) + br) zeroWord

/-- Slot `n`'s contribution as the kernel computes it: its 64-row band of the reduce weights against the slot's
    encoding, each product written weight first. -/
def band (n : Fin 5) : EReal :=
  ∑ d : Fin 64, wr ⟨n.val * 64 + d.val, by have := n.isLt; have := d.isLt; omega⟩
    * (max ((∑ f : Fin 64, wm f d * c n f) + bm d) zeroWord * μ n)

/-- The entry as the kernel computes it: the five bands added in order onto a zero accumulator, then the bias and
    the clamp. -/
def bandForm : EReal :=
  max ((((((zeroWord + band c μ wm bm wr 0) + band c μ wm bm wr 1) + band c μ wm bm wr 2) + band c μ wm bm wr 3)
    + band c μ wm bm wr 4) + br) zeroWord

/-- The contraction over the concatenated columns is the sum of the five bands. -/
theorem sum_columns_eq_sum_bands :
    ∑ k : Fin 320, code c μ wm bm ⟨k.val / 64, by have := k.isLt; omega⟩ ⟨k.val % 64, by have := k.isLt; omega⟩ * wr k
      = ∑ n : Fin 5, band c μ wm bm wr n := by
  unfold band
  rw [← sum_columns_eq_sum_slots (fun n d => wr ⟨n.val * 64 + d.val, by have := n.isLt; have := d.isLt; omega⟩
    * (max ((∑ f : Fin 64, wm f d * c n f) + bm d) zeroWord * μ n))]
  refine Finset.sum_congr rfl fun k _ => ?_
  unfold code
  have hk : (⟨k.val / 64 * 64 + k.val % 64, by have := k.isLt; omega⟩ : Fin 320) = k :=
    Fin.ext (Nat.div_add_mod' k.val 64)
  have hf : ∀ (n : Fin 5) (d : Fin 64), (∑ f : Fin 64, wm f d * c n f) = ∑ f : Fin 64, c n f * wm f d :=
    fun n d => Finset.sum_congr rfl fun f _ => mul_comm _ _
  rw [hk, hf, mul_comm]

/-- The kernel's slot-by-slot form and the reference's concatenated form are one extended real. -/
theorem bandForm_eq_concatForm : bandForm c μ wm bm wr br = concatForm c μ wm bm wr br := by
  unfold bandForm concatForm
  rw [show zeroWord + band c μ wm bm wr 0 = band c μ wm bm wr 0 from by
    rw [show zeroWord = 0 from Ideal.ofBits_zero_f32, zero_add]]
  rw [sum_columns_eq_sum_bands, Fin.sum_univ_five]

end Entry

/-! ## The whole result array -/

section Arrays

open Idealize.ShloMosaic.ValueIdx

variable (cnt : (⟨3, ![32768, 5, 64]⟩ : Shape).Idx → EReal) (msk : (⟨2, ![32768, 5]⟩ : Shape).Idx → BitVec 32)
  (wm : (⟨2, ![64, 64]⟩ : Shape).Idx → EReal) (bm : (⟨1, ![64]⟩ : Shape).Idx → EReal)
  (wr : (⟨2, ![320, 128]⟩ : Shape).Idx → EReal) (br : (⟨1, ![128]⟩ : Shape).Idx → EReal)

/-- Entry `(b, s)` of the result as a function of the six argument arrays: `concatForm` of sample `b`'s counts and
    observed flags (a flag is an integer word read as a real), the map weights and bias, and column `s` of the reduce
    weights and bias. -/
def entry (b : Fin 32768) (s : Fin 128) : EReal :=
  concatForm (fun n f => cnt (ix3 b n f)) (fun n => FloatOps.sitofp (F := Ideal) .f32 (msk (ix2 b n)))
    (fun f d => wm (ix2 f d)) (fun d => bm (ix1 d)) (fun k => wr (ix2 k s)) (br (ix1 s))

/-- The same entry in the kernel's slot-by-slot form. -/
def entryByBands (b : Fin 32768) (s : Fin 128) : EReal :=
  bandForm (fun n f => cnt (ix3 b n f)) (fun n => FloatOps.sitofp (F := Ideal) .f32 (msk (ix2 b n)))
    (fun f d => wm (ix2 f d)) (fun d => bm (ix1 d)) (fun k => wr (ix2 k s)) (br (ix1 s))

theorem entryByBands_eq_entry (b : Fin 32768) (s : Fin 128) :
    entryByBands cnt msk wm bm wr br b s = entry cnt msk wm bm wr br b s :=
  bandForm_eq_concatForm _ _ _ _ _ _

/-- The result array. -/
def result : (⟨2, ![32768, 128]⟩ : Shape).Idx → EReal := fun i => entry cnt msk wm bm wr br (i 0) (i 1)

theorem result_apply (b : Fin 32768) (s : Fin 128) :
    result cnt msk wm bm wr br (ix2 b s) = entry cnt msk wm bm wr br b s := rfl

end Arrays

end Cert.MapSample

end
-- ==== Proof.RefRead.lean ====
/-
  The reference's result, read entry by entry, is the specification `Cert.MapSample.result`.

  The reference contracts the raw counts with the map weights, adds the map bias, clamps at zero, multiplies by the
  observed flag read as a real, lays the five 64-wide encodings of a sample side by side (a reshape of
  [32768, 5, 64] to [32768, 320]: column `k` is column `k % 64` of slot `k / 64`), contracts those 320 columns with
  the reduce weights, adds the reduce bias and clamps again.  Every one of these operations reads one element of
  each operand at an index, so the whole term at entry `(b, s)` is `concatForm` once the index maps composed along
  the way are named by their coordinates.
-/
import proofs.«141322_g5703716569288_cont_9to1c4b_55_13_alg».proof.Proof.Gen.ReferenceIdeal.Read
import proofs.«141322_g5703716569288_cont_9to1c4b_55_13_alg».proof.Proof.SlotSum

noncomputable section

open scoped BigOperators

namespace Cert.ReferenceIdeal.RefValue

open Cert.ReferenceIdeal Cert.ReferenceIdeal.Gen Cert.ReferenceIdeal.Read
open Idealize.ShloMosaic Idealize.ShloMosaic.ValueIdx Cert.MapSample

/-! ## The composed index maps, by coordinates -/

/-- Row `(b, n, d)` of the first contraction reads the counts at `(b, n, f)`. -/
theorem counts_index (b : Fin 32768) (n : Fin 5) (d f : Fin 64) : lidx_main_v0 (ix3 b n d) f = ix3 b n f :=
  funext fun a => by match a with | ⟨0, _⟩ => rfl | ⟨1, _⟩ => rfl | ⟨2, _⟩ => rfl

/-- … and the map weights at `(f, d)`. -/
theorem mapWeight_index (b : Fin 32768) (n : Fin 5) (d f : Fin 64) : ridx_main_v0 (ix3 b n d) f = ix2 f d :=
  funext fun a => by match a with | ⟨0, _⟩ => rfl | ⟨1, _⟩ => rfl

/-- The map bias, broadcast over samples and slots, is read at `d`. -/
theorem mapBias_index (b : Fin 32768) (n : Fin 5) (d : Fin 64) : idx_main_v1 (idx_main_v2 (ix3 b n d)) = ix1 d :=
  funext fun a => by match a with | ⟨0, _⟩ => rfl

/-- The observed flag, broadcast over the encoding's columns, is read at `(b, n)`. -/
theorem flag_index (b : Fin 32768) (n : Fin 5) (d : Fin 64) : idx_main_v6 (idx_main_v7 (ix3 b n d)) = ix2 b n :=
  funext fun a => by match a with | ⟨0, _⟩ => rfl | ⟨1, _⟩ => rfl

/-- Column `k` of sample `b`'s concatenated encodings is column `k % 64` of slot `k / 64`. -/
theorem column_index (b : Fin 32768) (s : Fin 128) (k : Fin 320) :
    idx_main_v9 (lidx_main_v10 (ix2 b s) k)
      = ix3 b ⟨k.val / 64, by have := k.isLt; omega⟩ ⟨k.val % 64, by have := k.isLt; omega⟩ :=
  funext fun a => Fin.ext (by
    have hi : b.val < 32768 := b.isLt
    have hk : k.val < 320 := k.isLt
    match a with
    | ⟨0, _⟩ => show (b.val * 320 + k.val) / 320 = b.val; omega
    | ⟨1, _⟩ => show (b.val * 320 + k.val) / 64 % 5 = k.val / 64; omega
    | ⟨2, _⟩ => show (b.val * 320 + k.val) % 64 = k.val % 64; omega)

/-- The second contraction reads the reduce weights at `(k, s)`. -/
theorem reduceWeight_index (b : Fin 32768) (s : Fin 128) (k : Fin 320) : ridx_main_v10 (ix2 b s) k = ix2 k s :=
  funext fun a => by match a with | ⟨0, _⟩ => rfl | ⟨1, _⟩ => rfl

/-- The reduce bias, broadcast over samples, is read at `s`. -/
theorem reduceBias_index (b : Fin 32768) (s : Fin 128) : idx_main_v11 (idx_main_v12 (ix2 b s)) = ix1 s :=
  funext fun a => by match a with | ⟨0, _⟩ => rfl

/-! ## The reference is the specification -/

/-- One column of a sample's concatenated encodings is `code` of its slot and column. -/
theorem column_eq (x0 : (⟨S32768x5x64, .f32⟩ : BufTy).Contents (Elt Ideal)) (x1 : (⟨S32768x5, .i32⟩ : BufTy).Contents (Elt Ideal))
    (x2 : (⟨S64x64, .f32⟩ : BufTy).Contents (Elt Ideal)) (x3 : (⟨S64, .f32⟩ : BufTy).Contents (Elt Ideal))
    (b : Fin 32768) (s : Fin 128) (k : Fin 320) :
    val_main_v9 (F := Ideal) x0 x1 x2 x3 (lidx_main_v10 (ix2 b s) k)
      = code (fun n f => x0 (ix3 b n f)) (fun n => FloatOps.sitofp (F := Ideal) .f32 (x1 (ix2 b n)))
          (fun f d => x2 (ix2 f d)) (fun d => x3 (ix1 d))
          ⟨k.val / 64, by have := k.isLt; omega⟩ ⟨k.val % 64, by have := k.isLt; omega⟩ := by
  rw [val_main_v9_apply, column_index, val_main_v8_apply, val_main_v4_apply, val_main_v3_apply, val_main_v0_apply,
    val_main_v2_apply, val_main_v1_apply, val_main_call0_v0_apply, val_main_call0_cst_apply, val_main_v7_apply,
    val_main_v6_apply, val_main_v5_apply]
  simp only [counts_index, mapWeight_index, mapBias_index, flag_index]
  rfl

/-- The reference's result array is `result` of its six arguments. -/
theorem reference_eq_result (x0 : (⟨S32768x5x64, .f32⟩ : BufTy).Contents (Elt Ideal)) (x1 : (⟨S32768x5, .i32⟩ : BufTy).Contents (Elt Ideal))
    (x2 : (⟨S64x64, .f32⟩ : BufTy).Contents (Elt Ideal)) (x3 : (⟨S64, .f32⟩ : BufTy).Contents (Elt Ideal))
    (x4 : (⟨S320x128, .f32⟩ : BufTy).Contents (Elt Ideal)) (x5 : (⟨S128, .f32⟩ : BufTy).Contents (Elt Ideal)) :
    val_main_v14 (F := Ideal) x0 x1 x2 x3 x4 x5 = result x0 x1 x2 x3 x4 x5 := by
  funext i
  obtain ⟨b, s, rfl⟩ : ∃ (b : Fin 32768) (s : Fin 128), i = ix2 b s := ⟨i 0, i 1, eq_ix2 i⟩
  rw [result_apply, val_main_v14_apply, val_main_v13_apply, val_main_v10_apply, val_main_v12_apply, val_main_v11_apply,
    val_main_call1_v0_apply, val_main_call1_cst_apply]
  simp only [column_eq, reduceWeight_index, reduceBias_index]
  rfl

end Cert.ReferenceIdeal.RefValue

end
-- ==== Proof.BodyEntry.lean ====
/-
  What the kernel body leaves in its output block, entry by entry.

  At a grid point the body holds a [5, 64, 2048] panel of counts (slot, raw feature, sample), a [5, 2048] panel of
  observed flags, the [64, 64] map weights, the map bias as a [64, 1] column, the reduce weights as five [64, 128]
  bands and the reduce bias as a [128, 1] column.  For each slot it contracts the map weights with the slot's counts
  over the raw feature, adds the bias column, clamps at zero and multiplies by the slot's flag row; it contracts the
  slot's band of reduce weights with that encoding over the encoding's columns; and it adds the five products, in
  slot order, onto a zero accumulator.  The bias column and a last clamp follow, and the [128, 2048] value is stored
  transposed.  So entry `(p, s)` of the stored block is the bias-and-clamp of the five `blockBand`s at `(p, s)`.
-/
import proofs.«141322_g5703716569288_cont_9to1c4b_55_13_alg».proof.Proof.Gen.KernelIdeal.Frame
import proofs.«141322_g5703716569288_cont_9to1c4b_55_13_alg».proof.Proof.SlotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.BodyValue

open Cert.KernelIdeal Cert.KernelIdeal.Gen
open Idealize.ShloMosaic Idealize.ShloMosaic.ValueIdx Cert.MapSample

/-! ## The two contractions read at an entry -/

theorem lhs_map_0 (i : S64x2048.Idx) (q : dot_S64x64_S64x2048_S64x2048_0_0_1_1_n_n.contr.Idx) :
    (dot_S64x64_S64x2048_S64x2048_0_0_1_1_n_n.lhsIdx i q 0).val = (q ⟨0, by decide⟩).val :=
  dot_S64x64_S64x2048_S64x2048_0_0_1_1_n_n.lhsIdx_val_of_single rfl i q
theorem lhs_map_1 (i : S64x2048.Idx) (q : dot_S64x64_S64x2048_S64x2048_0_0_1_1_n_n.contr.Idx) :
    (dot_S64x64_S64x2048_S64x2048_0_0_1_1_n_n.lhsIdx i q 1).val = (i 0).val := by
  unfold DotDims.lhsIdx
  rw [dif_neg (show ¬(1 : Fin S64x64.rank) ∈ dot_S64x64_S64x2048_S64x2048_0_0_1_1_n_n.lhsBatch by decide), dif_pos (show (1 : Fin S64x64.rank) ∈ dot_S64x64_S64x2048_S64x2048_0_0_1_1_n_n.lhsNonContracting by decide)]
  rfl
theorem rhs_map_0 (i : S64x2048.Idx) (q : dot_S64x64_S64x2048_S64x2048_0_0_1_1_n_n.contr.Idx) :
    (dot_S64x64_S64x2048_S64x2048_0_0_1_1_n_n.rhsIdx i q 0).val = (q ⟨0, by decide⟩).val :=
  dot_S64x64_S64x2048_S64x2048_0_0_1_1_n_n.rhsIdx_val_of_single rfl i q
theorem rhs_map_1 (i : S64x2048.Idx) (q : dot_S64x64_S64x2048_S64x2048_0_0_1_1_n_n.contr.Idx) :
    (dot_S64x64_S64x2048_S64x2048_0_0_1_1_n_n.rhsIdx i q 1).val = (i 1).val := by
  unfold DotDims.rhsIdx
  rw [dif_neg (show ¬(1 : Fin S64x2048.rank) ∈ dot_S64x64_S64x2048_S64x2048_0_0_1_1_n_n.rhsBatch by decide), dif_pos (show (1 : Fin S64x2048.rank) ∈ dot_S64x64_S64x2048_S64x2048_0_0_1_1_n_n.rhsNonContracting by decide)]
  rfl

/-- The map contraction into a zero accumulator: entry `(d, p)` sums, over the raw feature `f`, the weight at
    `(f, d)` times the operand at `(f, p)`. -/
theorem mapContraction_apply (w : FVec Ideal S64x64 .f32) (x : FVec Ideal S64x2048 .f32) (d : Fin 64) (p : Fin 2048) :
    matmul dot_S64x64_S64x2048_S64x2048_0_0_1_1_n_n none w x (constant S64x2048 .f32 0x00000000#32) (ix2 d p)
      = ∑ f : Fin 64, w (ix2 f d) * x (ix2 f p) := by
  simp only [matmul]
  rw [Ideal.matmul_constant_zero_apply, ← Equiv.sum_comp (contrEquiv1 dot_S64x64_S64x2048_S64x2048_0_0_1_1_n_n 64 rfl rfl).symm]
  refine Finset.sum_congr rfl fun k _ => ?_
  have hk := contrEquiv1_symm_val dot_S64x64_S64x2048_S64x2048_0_0_1_1_n_n 64 rfl rfl k
  have el : dot_S64x64_S64x2048_S64x2048_0_0_1_1_n_n.lhsIdx (ix2 d p) ((contrEquiv1 dot_S64x64_S64x2048_S64x2048_0_0_1_1_n_n 64 rfl rfl).symm k) = ix2 k d := funext fun a => Fin.ext (by
    match a with
    | ⟨0, _⟩ => exact (lhs_map_0 _ _).trans hk
    | ⟨1, _⟩ => exact lhs_map_1 _ _)
  have er : dot_S64x64_S64x2048_S64x2048_0_0_1_1_n_n.rhsIdx (ix2 d p) ((contrEquiv1 dot_S64x64_S64x2048_S64x2048_0_0_1_1_n_n 64 rfl rfl).symm k) = ix2 k p := funext fun a => Fin.ext (by
    match a with
    | ⟨0, _⟩ => exact (rhs_map_0 _ _).trans hk
    | ⟨1, _⟩ => exact rhs_map_1 _ _)
  rw [el, er]

theorem lhs_band_0 (i : S128x2048.Idx) (q : dot_S64x128_S64x2048_S128x2048_0_0_1_1_n_n.contr.Idx) :
    (dot_S64x128_S64x2048_S128x2048_0_0_1_1_n_n.lhsIdx i q 0).val = (q ⟨0, by decide⟩).val :=
  dot_S64x128_S64x2048_S128x2048_0_0_1_1_n_n.lhsIdx_val_of_single rfl i q
theorem lhs_band_1 (i : S128x2048.Idx) (q : dot_S64x128_S64x2048_S128x2048_0_0_1_1_n_n.contr.Idx) :
    (dot_S64x128_S64x2048_S128x2048_0_0_1_1_n_n.lhsIdx i q 1).val = (i 0).val := by
  unfold DotDims.lhsIdx
  rw [dif_neg (show ¬(1 : Fin S64x128.rank) ∈ dot_S64x128_S64x2048_S128x2048_0_0_1_1_n_n.lhsBatch by decide), dif_pos (show (1 : Fin S64x128.rank) ∈ dot_S64x128_S64x2048_S128x2048_0_0_1_1_n_n.lhsNonContracting by decide)]
  rfl
theorem rhs_band_0 (i : S128x2048.Idx) (q : dot_S64x128_S64x2048_S128x2048_0_0_1_1_n_n.contr.Idx) :
    (dot_S64x128_S64x2048_S128x2048_0_0_1_1_n_n.rhsIdx i q 0).val = (q ⟨0, by decide⟩).val :=
  dot_S64x128_S64x2048_S128x2048_0_0_1_1_n_n.rhsIdx_val_of_single rfl i q
theorem rhs_band_1 (i : S128x2048.Idx) (q : dot_S64x128_S64x2048_S128x2048_0_0_1_1_n_n.contr.Idx) :
    (dot_S64x128_S64x2048_S128x2048_0_0_1_1_n_n.rhsIdx i q 1).val = (i 1).val := by
  unfold DotDims.rhsIdx
  rw [dif_neg (show ¬(1 : Fin S64x2048.rank) ∈ dot_S64x128_S64x2048_S128x2048_0_0_1_1_n_n.rhsBatch by decide), dif_pos (show (1 : Fin S64x2048.rank) ∈ dot_S64x128_S64x2048_S128x2048_0_0_1_1_n_n.rhsNonContracting by decide)]
  rfl

/-- The band contraction into a zero accumulator: entry `(s, p)` sums, over the encoding's column `d`, the weight
    at `(d, s)` times the encoding at `(d, p)`. -/
theorem bandContraction_apply (w : FVec Ideal S64x128 .f32) (h : FVec Ideal S64x2048 .f32) (s : Fin 128) (p : Fin 2048) :
    matmul dot_S64x128_S64x2048_S128x2048_0_0_1_1_n_n none w h (constant S128x2048 .f32 0x00000000#32) (ix2 s p)
      = ∑ d : Fin 64, w (ix2 d s) * h (ix2 d p) := by
  simp only [matmul]
  rw [Ideal.matmul_constant_zero_apply, ← Equiv.sum_comp (contrEquiv1 dot_S64x128_S64x2048_S128x2048_0_0_1_1_n_n 64 rfl rfl).symm]
  refine Finset.sum_congr rfl fun k _ => ?_
  have hk := contrEquiv1_symm_val dot_S64x128_S64x2048_S128x2048_0_0_1_1_n_n 64 rfl rfl k
  have el : dot_S64x128_S64x2048_S128x2048_0_0_1_1_n_n.lhsIdx (ix2 s p) ((contrEquiv1 dot_S64x128_S64x2048_S128x2048_0_0_1_1_n_n 64 rfl rfl).symm k) = ix2 k s := funext fun a => Fin.ext (by
    match a with
    | ⟨0, _⟩ => exact (lhs_band_0 _ _).trans hk
    | ⟨1, _⟩ => exact lhs_band_1 _ _)
  have er : dot_S64x128_S64x2048_S128x2048_0_0_1_1_n_n.rhsIdx (ix2 s p) ((contrEquiv1 dot_S64x128_S64x2048_S128x2048_0_0_1_1_n_n 64 rfl rfl).symm k) = ix2 k p := funext fun a => Fin.ext (by
    match a with
    | ⟨0, _⟩ => exact (rhs_band_0 _ _).trans hk
    | ⟨1, _⟩ => exact rhs_band_1 _ _)
  rw [el, er]

/-! ## A column broadcast over many -/

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One slot, as the body computes it -/

/-- A slot's encoding from the map weights, the bias column, the slot's [1, 64, 2048] counts and its [1, 2048] flags. -/
def slotEnc (w : FVec Ideal S64x64 .f32) (bcol : FVec Ideal S64x1 .f32) (x : FVec Ideal S1x64x2048 .f32)
    (mrow : IVec S1x2048 32) : FVec Ideal S64x2048 .f32 :=
  mulf (maximumf (addf (matmul dot_S64x64_S64x2048_S64x2048_0_0_1_1_n_n none w (shapeCast S64x2048 x Facts₀.shapeCasts_S1x64x2048_S64x2048) (constant S64x2048 .f32 0x00000000#32))
      (broadcastTo S64x2048 bcol Facts₀.broadcasts_S64x1_S64x2048)) (broadcast S64x2048 (Scalar.ofBits .f32 0x00000000#32)))
    (broadcastTo S64x2048 (sitofp .f32 (shapeCast S1x2048 mrow Facts₀.shapeCasts_S1x2048_S1x2048)) Facts₀.broadcasts_S1x2048_S64x2048)

/-- A slot's contribution: its [1, 64, 128] band of reduce weights contracted with its encoding. -/
def slotBand (wslot : FVec Ideal S1x64x128 .f32) (h : FVec Ideal S64x2048 .f32) : FVec Ideal S128x2048 .f32 :=
  matmul dot_S64x128_S64x2048_S128x2048_0_0_1_1_n_n none (shapeCast S64x128 wslot Facts₀.shapeCasts_S1x64x128_S64x128) h (constant S128x2048 .f32 0x00000000#32)

theorem slotEnc_apply (w : FVec Ideal S64x64 .f32) (bcol : FVec Ideal S64x1 .f32) (x : FVec Ideal S1x64x2048 .f32)
    (mrow : IVec S1x2048 32) (d : Fin 64) (p : Fin 2048) :
    slotEnc w bcol x mrow (ix2 d p)
      = max ((∑ f : Fin 64, w (ix2 f d) * x (ix3 (0 : Fin 1) f p)) + bcol (ix2 d (0 : Fin 1))) zeroWord
          * FloatOps.sitofp (F := Ideal) .f32 (mrow (ix2 (0 : Fin 1) p)) := by
  unfold slotEnc
  rw [mulf_apply, maximumf_apply, addf_apply, mapContraction_apply, broadcastTo_a1_ab_apply, broadcast_apply,
    broadcastTo_1b_ab_apply, sitofp_apply, shapeCast_self]
  simp only [shapeCast_1ab_ab_apply]
  rfl

theorem slotBand_apply (wslot : FVec Ideal S1x64x128 .f32) (h : FVec Ideal S64x2048 .f32) (s : Fin 128) (p : Fin 2048) :
    slotBand wslot h (ix2 s p) = ∑ d : Fin 64, wslot (ix3 (0 : Fin 1) d s) * h (ix2 d p) := by
  unfold slotBand
  rw [bandContraction_apply]
  simp only [shapeCast_1ab_ab_apply]

/-! ## The body's payloads are those slot functions, composed -/

theorem secondSlotEnc_eq (v0 : Vec Ideal S64x64 .f32) (v1 : Vec Ideal S64x1 .f32) (v20 : Vec Ideal S1x64x2048 .f32) (v27 : Vec Ideal S1x2048 .i32) :
    k0_pay4 (F := Ideal) v0 v1 v20 v27 = slotEnc v0 (k0_pay2 v1) v20 v27 := rfl

theorem firstBand_eq (v0 : Vec Ideal S64x64 .f32) (v1 : Vec Ideal S64x1 .f32) (v4 : Vec Ideal S1x64x2048 .f32) (v11 : Vec Ideal S1x2048 .i32)
    (v16 : Vec Ideal S1x64x128 .f32) :
    k0_pay3 (F := Ideal) v0 v1 v4 v11 v16
      = addf (broadcast S128x2048 (Scalar.ofBits .f32 0x00000000#32)) (slotBand v16 (slotEnc v0 (k0_pay2 v1) v4 v11)) := rfl

theorem fourBands_eq (v0 : Vec Ideal S64x64 .f32) (v2 : FVec Ideal S64x1 .f32) (v19 : FVec Ideal S128x2048 .f32) (v31 : FVec Ideal S64x2048 .f32)
    (v32 : Vec Ideal S1x64x128 .f32) (v36 : Vec Ideal S1x64x2048 .f32) (v43 : Vec Ideal S1x2048 .i32) (v48 : Vec Ideal S1x64x128 .f32)
    (v52 : Vec Ideal S1x64x2048 .f32) (v59 : Vec Ideal S1x2048 .i32) (v64 : Vec Ideal S1x64x128 .f32) :
    k0_pay5 (F := Ideal) v0 v2 v19 v31 v32 v36 v43 v48 v52 v59 v64
      = addf (addf (addf v19 (slotBand v32 v31)) (slotBand v48 (slotEnc v0 v2 v36 v43))) (slotBand v64 (slotEnc v0 v2 v52 v59)) := rfl

theorem stored_eq (v0 : Vec Ideal S64x64 .f32) (v2 : FVec Ideal S64x1 .f32) (v67 : FVec Ideal S128x2048 .f32) (v68 : Vec Ideal S1x64x2048 .f32)
    (v75 : Vec Ideal S1x2048 .i32) (v80 : Vec Ideal S1x64x128 .f32) (v84 : Vec Ideal S128x1 .f32) :
    k0_pay1 (F := Ideal) v0 v2 v67 v68 v75 v80 v84
      = transpose S2048x128 [1, 0] (maximumf (addf (addf v67 (slotBand v80 (slotEnc v0 v2 v68 v75)))
          (broadcastTo S128x2048 (shapeCast S128x1 v84 Facts₀.shapeCasts_S128x1_S128x1) Facts₀.broadcasts_S128x1_S128x2048))
          (broadcast S128x2048 (Scalar.ofBits .f32 0x00000000#32))) Facts₀.transposes_S128x2048_p1_0_S2048x128 := rfl

/-! ## A slot's loads -/

/-- Slot `n`'s counts, loaded as a [1, 64, 2048] piece of the panel, are the panel at `(n, f, p)`. -/
theorem load_counts (x0 : Vec Ideal S5x64x2048 .f32) (o : Nat) (n : Fin 5) (ho : o = n.val)
    (inb : ∀ a, (![o, 0, 0] : Fin 3 → Nat) a + S1x64x2048.size a ≤ S5x64x2048.size a) (f : Fin 64) (p : Fin 2048) :
    View.ld x0 (Rect.unit (s := S5x64x2048) ![o, 0, 0] S1x64x2048.size inb) (ix3 (0 : Fin 1) f p) = x0 (ix3 n f p) := by
  subst ho
  show x0 _ = x0 _
  refine congrArg x0 (funext fun a => Fin.ext ?_)
  match a with
  | ⟨0, _⟩ => show n.val + 1 * 0 = n.val; omega
  | ⟨1, _⟩ => show 0 + 1 * f.val = f.val; omega
  | ⟨2, _⟩ => show 0 + 1 * p.val = p.val; omega

/-- Slot `n`'s flags, loaded as a [1, 2048] row of the panel, are the panel at `(n, p)`. -/
theorem load_flags (x1 : Vec Ideal S5x2048 .i32) (o : Nat) (n : Fin 5) (ho : o = n.val)
    (inb : ∀ a, (![o, 0] : Fin 2 → Nat) a + S1x2048.size a ≤ S5x2048.size a) (p : Fin 2048) :
    View.ld x1 (Rect.unit (s := S5x2048) ![o, 0] S1x2048.size inb) (ix2 (0 : Fin 1) p) = x1 (ix2 n p) := by
  subst ho
  show x1 _ = x1 _
  refine congrArg x1 (funext fun a => Fin.ext ?_)
  match a with
  | ⟨0, _⟩ => show n.val + 1 * 0 = n.val; omega
  | ⟨1, _⟩ => show 0 + 1 * p.val = p.val; omega

/-- Slot `n`'s band of reduce weights, loaded as a [1, 64, 128] piece, is the stack at `(n, d, s)`. -/
theorem load_band (x4 : Vec Ideal S5x64x128 .f32) (o : Nat) (n : Fin 5) (ho : o = n.val)
    (inb : ∀ a, (![o, 0, 0] : Fin 3 → Nat) a + S1x64x128.size a ≤ S5x64x128.size a) (d : Fin 64) (s : Fin 128) :
    View.ld x4 (Rect.unit (s := S5x64x128) ![o, 0, 0] S1x64x128.size inb) (ix3 (0 : Fin 1) d s) = x4 (ix3 n d s) := by
  subst ho
  show x4 _ = x4 _
  refine congrArg x4 (funext fun a => Fin.ext ?_)
  match a with
  | ⟨0, _⟩ => show n.val + 1 * 0 = n.val; omega
  | ⟨1, _⟩ => show 0 + 1 * d.val = d.val; omega
  | ⟨2, _⟩ => show 0 + 1 * s.val = s.val; omega

/-! ## The output block, entry by entry -/

section Block

variable (x0 : Vec Ideal S5x64x2048 .f32) (x1 : Vec Ideal S5x2048 .i32) (x2 : Vec Ideal S64x64 .f32)
  (x3 : Vec Ideal S64x1 .f32) (x4 : Vec Ideal S5x64x128 .f32) (x5 : Vec Ideal S128x1 .f32)

/-- Slot `n`'s contribution to entry `(p, s)` of the block, from the blocks' entries. -/
def blockBand (n : Fin 5) (p : Fin 2048) (s : Fin 128) : EReal :=
  ∑ d : Fin 64, x4 (ix3 n d s)
    * (max ((∑ f : Fin 64, x2 (ix2 f d) * x0 (ix3 n f p)) + x3 (ix2 d (0 : Fin 1))) zeroWord
        * FloatOps.sitofp (F := Ideal) .f32 (x1 (ix2 n p)))

theorem hz2 : (![0, 0] : Fin 2 → Nat) = fun _ => 0 := funext fun a => by fin_cases a <;> rfl

/-- Entry `(p, s)` of what the body stores: the five slots' contributions added in order onto zero, the bias, the clamp. -/
theorem out_entry (p : Fin 2048) (s : Fin 128) :
    out0_6 (F := Ideal) x0 x1 x2 x3 x4 x5 (ix2 p s)
      = max ((((((zeroWord + blockBand x0 x1 x2 x3 x4 0 p s) + blockBand x0 x1 x2 x3 x4 1 p s) + blockBand x0 x1 x2 x3 x4 2 p s)
          + blockBand x0 x1 x2 x3 x4 3 p s) + blockBand x0 x1 x2 x3 x4 4 p s) + x5 (ix2 s (0 : Fin 1))) zeroWord := by
  unfold out0_6
  rw [View.canon_unit_zero hz2]
  simp only [View.ld_unit_zero (S := S64x64) hz2, View.ld_unit_zero (S := S64x1) hz2, View.ld_unit_zero (S := S128x1) hz2]
  rw [stored_eq, fourBands_eq, firstBand_eq, secondSlotEnc_eq, transpose_ix2_apply]
  simp only [maximumf_apply, addf_apply, broadcast_apply, slotBand_apply, slotEnc_apply, broadcastTo_a1_ab_apply,
    shapeCast_self, k0_pay2]
  simp only [load_counts x0 0 0 rfl, load_counts x0 1 1 rfl, load_counts x0 2 2 rfl, load_counts x0 3 3 rfl, load_counts x0 4 4 rfl,
    load_flags x1 0 0 rfl, load_flags x1 1 1 rfl, load_flags x1 2 2 rfl, load_flags x1 3 3 rfl, load_flags x1 4 4 rfl,
    load_band x4 0 0 rfl, load_band x4 1 1 rfl, load_band x4 2 2 rfl, load_band x4 3 3 rfl, load_band x4 4 4 rfl]
  rfl

end Block

end Cert.KernelIdeal.BodyValue

end
-- ==== Proof.ArrayValue.lean ====
/-
  From the body's block to the whole result array.

  The region stages six arrays: the counts relaid as [5, 64, 32768] (slot, raw feature, sample) and the observed flags
  as [5, 32768] — transposes of the arguments —, the map weights as they are, the map bias as a [64, 1] column, the reduce
  weights as five [64, 128] bands (row `64 n + d` of the argument is row `d` of band `n`) and the reduce bias as a
  [128, 1] column — reshapes of the arguments.  Grid point `t` takes the 2048 samples `2048 t … 2048 t + 2047` of the
  two sample-minor panels and the whole of the four small arrays, and writes rows `2048 t …` of the result.  So the
  block a point writes back is that block of `result` of the six arguments (the body's entry, with each block entry
  replaced by the array entry it is, is `entryByBands`), the sixteen blocks tile the result, and the array after the
  run is `result`.
-/
import proofs.«141322_g5703716569288_cont_9to1c4b_55_13_alg».proof.Proof.Gen.KernelIdeal.Value
import proofs.«141322_g5703716569288_cont_9to1c4b_55_13_alg».proof.Proof.BodyEntry
import proofs.«141322_g5703716569288_cont_9to1c4b_55_13_alg».proof.Proof.SlotSum
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.ArrayValue

open Cert.KernelIdeal Cert.KernelIdeal.Gen Cert.KernelIdeal.BodyValue
open Idealize.ShloMosaic Idealize.ShloMosaic.TcCoe Idealize.SL.Sem Idealize.ShloMosaic.ValueIdx Cert.MapSample
open Idealize.ShloMosaic.Pipeline (Dat)

variable (m : (ℓ : Loc nD τ sig) → Buf (Elt Ideal) ℓ) (ρ : Dev nD → PrngReg)

/-! ## The six arguments, by their literal types -/

abbrev counts (c : Dev nD) : S32768x5x64.Idx → EReal := m ((c : Thread nD τ).loc main_arg0)
abbrev flags (c : Dev nD) : S32768x5.Idx → BitVec 32 := m ((c : Thread nD τ).loc main_arg1)
abbrev mapW (c : Dev nD) : S64x64.Idx → EReal := m ((c : Thread nD τ).loc main_arg2)
abbrev mapB (c : Dev nD) : S64.Idx → EReal := m ((c : Thread nD τ).loc main_arg3)
abbrev redW (c : Dev nD) : S320x128.Idx → EReal := m ((c : Thread nD τ).loc main_arg4)
abbrev redB (c : Dev nD) : S128.Idx → EReal := m ((c : Thread nD τ).loc main_arg5)

/-- The result array this certificate names: `result` of the six arguments. -/
abbrev resultArr (c : Dev nD) : S32768x128.Idx → EReal :=
  result (counts m c) (flags m c) (mapW m c) (mapB m c) (redW m c) (redB m c)

/-! ## The staged arrays as the region finds them -/

theorem staged_counts (c : Dev nD) :
    (V m c main_call0_v0 : S5x64x32768.Idx → EReal)
      = transpose S5x64x32768 [1, 2, 0] (counts m c) Facts₀.transposes_S32768x5x64_S5x64x32768_1_2_0 := by
  dsimp only [Gen.V, Gen.hostOps0]; after_results; rfl

theorem staged_flags (c : Dev nD) :
    (V m c main_call0_v1 : S5x32768.Idx → BitVec 32)
      = transpose S5x32768 [1, 0] (flags m c) Facts₀.transposes_S32768x5_S5x32768_1_0 := by
  dsimp only [Gen.V, Gen.hostOps0]; after_results; rfl

theorem staged_bands (c : Dev nD) :
    (V m c main_call0_v2 : S5x64x128.Idx → EReal) = shapeCast S5x64x128 (redW m c) Facts₀.shapeCasts_S320x128_S5x64x128 := by
  dsimp only [Gen.V, Gen.hostOps0]; after_results; rfl

theorem staged_mapBias (c : Dev nD) :
    (V m c main_call0_v3 : S64x1.Idx → EReal) = shapeCast S64x1 (mapB m c) Facts₀.shapeCasts_S64_S64x1 := by
  dsimp only [Gen.V, Gen.hostOps0]; after_results; rfl

theorem staged_redBias (c : Dev nD) :
    (V m c main_call0_v4 : S128x1.Idx → EReal) = shapeCast S128x1 (redB m c) Facts₀.shapeCasts_S128_S128x1 := by
  dsimp only [Gen.V, Gen.hostOps0]; after_results; rfl

/-- The relaid counts at `(n, f, b)` are the counts at `(b, n, f)`. -/
theorem staged_counts_apply (c : Dev nD) (n : Fin 5) (f : Fin 64) (b : Fin 32768) :
    V m c main_call0_v0 (ix3 n f b) = counts m c (ix3 b n f) :=
  (congrFun (staged_counts m c) (ix3 n f b)).trans
    (transpose_apply _ (counts m c) _ (ix3 n f b) (ix3 b n f) fun a => match a with | ⟨0, _⟩ => rfl | ⟨1, _⟩ => rfl | ⟨2, _⟩ => rfl)

/-- The relaid flags at `(n, b)` are the flags at `(b, n)`. -/
theorem staged_flags_apply (c : Dev nD) (n : Fin 5) (b : Fin 32768) :
    V m c main_call0_v1 (ix2 n b) = flags m c (ix2 b n) :=
  (congrFun (staged_flags m c) (ix2 n b)).trans (transpose_ix2_apply (flags m c) _ n b)

/-- Band `n`'s row `d` is row `64 n + d` of the reduce weights. -/
theorem staged_bands_apply (c : Dev nD) (n : Fin 5) (d : Fin 64) (s : Fin 128) :
    V m c main_call0_v2 (ix3 n d s) = redW m c (ix2 ⟨n.val * 64 + d.val, by have := n.isLt; have := d.isLt; omega⟩ s) :=
  (congrFun (staged_bands m c) (ix3 n d s)).trans
    (shapeCast_apply (redW m c) _ (ix3 n d s) (ix2 ⟨n.val * 64 + d.val, by have := n.isLt; have := d.isLt; omega⟩ s) (by
      rw [Shape.rowMajor_val_two, Shape.rowMajor_val_three]
      show (n.val * 64 + d.val) * 128 + s.val = (n.val * 64 + d.val) * 128 + s.val
      rfl))

/-- The map bias column at `(d, 0)` is the bias at `d`. -/
theorem staged_mapBias_apply (c : Dev nD) (d : Fin 64) : V m c main_call0_v3 (ix2 d (0 : Fin 1)) = mapB m c (ix1 d) :=
  (congrFun (staged_mapBias m c) (ix2 d (0 : Fin 1))).trans
    (shapeCast_apply (mapB m c) _ (ix2 d (0 : Fin 1)) (ix1 d) (by
      rw [Shape.rowMajor_val_one, Shape.rowMajor_val_two]
      show d.val = d.val * 1 + 0
      omega))

/-- The reduce bias column at `(s, 0)` is the bias at `s`. -/
theorem staged_redBias_apply (c : Dev nD) (s : Fin 128) : V m c main_call0_v4 (ix2 s (0 : Fin 1)) = redB m c (ix1 s) :=
  (congrFun (staged_redBias m c) (ix2 s (0 : Fin 1))).trans
    (shapeCast_apply (redB m c) _ (ix2 s (0 : Fin 1)) (ix1 s) (by
      rw [Shape.rowMajor_val_one, Shape.rowMajor_val_two]
      show s.val = s.val * 1 + 0
      omega))

/-! ## The windows' blocks as pieces of their arrays -/

/-- The printed index maps, decided over the sixteen points: the two sample-minor panels move with the output's row
    block on their last axis, the four small arrays stay at block zero, the output's column block is zero. -/
theorem idx_facts : ∀ t : Fin cfg0.N,
    win0_0.index t (0 : Fin 3) = 0 ∧ win0_0.index t (1 : Fin 3) = 0 ∧ win0_0.index t (2 : Fin 3) = win0_6.index t (0 : Fin 2)
    ∧ win0_1.index t (0 : Fin 2) = 0 ∧ win0_1.index t (1 : Fin 2) = win0_6.index t (0 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (1 : Fin 2) = 0 ∧ win0_6.index t (0 : Fin 2) ≤ 15 :=
  (by decide +kernel : ∀ t : Fin grid0.N, _)

/-- Every row block of the result is some point's. -/
theorem idx_onto : ∀ q : Fin 16, ∃ t : Fin cfg0.N, win0_6.index t = ![q.val, 0] :=
  (by decide +kernel : ∀ q : Fin 16, ∃ t : Fin grid0.N, win0_6.index t = ![q.val, 0])

abbrev cntBlk (c : Dev nD) (t : Fin cfg0.N) : Vec Ideal S5x64x2048 .f32 := iblk m c 0 t
abbrev flagBlk (c : Dev nD) (t : Fin cfg0.N) : Vec Ideal S5x2048 .i32 := iblk m c 1 t
abbrev wmBlk (c : Dev nD) (t : Fin cfg0.N) : Vec Ideal S64x64 .f32 := iblk m c 2 t
abbrev bmBlk (c : Dev nD) (t : Fin cfg0.N) : Vec Ideal S64x1 .f32 := iblk m c 3 t
abbrev wrBlk (c : Dev nD) (t : Fin cfg0.N) : Vec Ideal S5x64x128 .f32 := iblk m c 4 t
abbrev brBlk (c : Dev nD) (t : Fin cfg0.N) : Vec Ideal S128x1 .f32 := iblk m c 5 t

section Point

variable (c : Dev nD) (t : Fin cfg0.N) (T : Fin 16)

/-- Sample `p` of the point's counts block is sample `2048 T + p` of the counts. -/
theorem cntBlk_apply (hT : win0_6.index t (0 : Fin 2) = T.val) (n : Fin 5) (f : Fin 64) (p : Fin 2048) :
    cntBlk m c t (ix3 n f p) = counts m c (ix3 ⟨T.val * 2048 + p.val, by have := T.isLt; have := p.isLt; omega⟩ n f) := by
  obtain ⟨e0, e1, e2, -⟩ := idx_facts t
  show V m c main_call0_v0 (((cfg0.win 0).blk t).view.emb (ix3 n f p)) = _
  have he : ((cfg0.win 0).blk t).view.emb (ix3 n f p)
      = (ix3 n f ⟨T.val * 2048 + p.val, by have := T.isLt; have := p.isLt; omega⟩ : S5x64x32768.Idx) := by
    funext a; apply Fin.ext
    match a with
    | ⟨0, _⟩ => show win0_0.index t (0 : Fin 3) * 5 + 1 * n.val = n.val; omega
    | ⟨1, _⟩ => show win0_0.index t (1 : Fin 3) * 64 + 1 * f.val = f.val; omega
    | ⟨2, _⟩ => show win0_0.index t (2 : Fin 3) * 2048 + 1 * p.val = T.val * 2048 + p.val; omega
  rw [he]
  exact staged_counts_apply m c n f _

/-- Sample `p` of the point's flags block is sample `2048 T + p` of the flags. -/
theorem flagBlk_apply (hT : win0_6.index t (0 : Fin 2) = T.val) (n : Fin 5) (p : Fin 2048) :
    flagBlk m c t (ix2 n p) = flags m c (ix2 ⟨T.val * 2048 + p.val, by have := T.isLt; have := p.isLt; omega⟩ n) := by
  obtain ⟨-, -, -, e3, e4, -⟩ := idx_facts t
  show V m c main_call0_v1 (((cfg0.win 1).blk t).view.emb (ix2 n p)) = _
  have he : ((cfg0.win 1).blk t).view.emb (ix2 n p)
      = (ix2 n ⟨T.val * 2048 + p.val, by have := T.isLt; have := p.isLt; omega⟩ : S5x32768.Idx) := by
    funext a; apply Fin.ext
    match a with
    | ⟨0, _⟩ => show win0_1.index t (0 : Fin 2) * 5 + 1 * n.val = n.val; omega
    | ⟨1, _⟩ => show win0_1.index t (1 : Fin 2) * 2048 + 1 * p.val = T.val * 2048 + p.val; omega
  rw [he]
  exact staged_flags_apply m c n _

/-- The point's map-weight block is the whole array. -/
theorem wmBlk_apply (f d : Fin 64) : wmBlk m c t (ix2 f d) = mapW m c (ix2 f d) := by
  obtain ⟨-, -, -, -, -, e5, e6, -⟩ := idx_facts t
  show V m c main_arg2 (((cfg0.win 2).blk t).view.emb (ix2 f d)) = _
  have he : ((cfg0.win 2).blk t).view.emb (ix2 f d) = (ix2 f d : S64x64.Idx) := by
    funext a; apply Fin.ext
    match a with
    | ⟨0, _⟩ => show win0_2.index t (0 : Fin 2) * 64 + 1 * f.val = f.val; omega
    | ⟨1, _⟩ => show win0_2.index t (1 : Fin 2) * 64 + 1 * d.val = d.val; omega
  rw [he, V_main_arg2]

/-- The point's map-bias block is the whole column. -/
theorem bmBlk_apply (d : Fin 64) : bmBlk m c t (ix2 d (0 : Fin 1)) = mapB m c (ix1 d) := by
  obtain ⟨-, -, -, -, -, -, -, e7, e8, -⟩ := idx_facts t
  show V m c main_call0_v3 (((cfg0.win 3).blk t).view.emb (ix2 d (0 : Fin 1))) = _
  have he : ((cfg0.win 3).blk t).view.emb (ix2 d (0 : Fin 1)) = (ix2 d (0 : Fin 1) : S64x1.Idx) := by
    funext a; apply Fin.ext
    match a with
    | ⟨0, _⟩ => show win0_3.index t (0 : Fin 2) * 64 + 1 * d.val = d.val; omega
    | ⟨1, _⟩ => show win0_3.index t (1 : Fin 2) * 1 + 1 * 0 = 0; omega
  rw [he]
  exact staged_mapBias_apply m c d

/-- The point's reduce-weight block is the whole stack of bands. -/
theorem wrBlk_apply (n : Fin 5) (d : Fin 64) (s : Fin 128) :
    wrBlk m c t (ix3 n d s) = redW m c (ix2 ⟨n.val * 64 + d.val, by have := n.isLt; have := d.isLt; omega⟩ s) := by
  obtain ⟨-, -, -, -, -, -, -, -, -, e9, e10, e11, -⟩ := idx_facts t
  show V m c main_call0_v2 (((cfg0.win 4).blk t).view.emb (ix3 n d s)) = _
  have he : ((cfg0.win 4).blk t).view.emb (ix3 n d s) = (ix3 n d s : S5x64x128.Idx) := by
    funext a; apply Fin.ext
    match a with
    | ⟨0, _⟩ => show win0_4.index t (0 : Fin 3) * 5 + 1 * n.val = n.val; omega
    | ⟨1, _⟩ => show win0_4.index t (1 : Fin 3) * 64 + 1 * d.val = d.val; omega
    | ⟨2, _⟩ => show win0_4.index t (2 : Fin 3) * 128 + 1 * s.val = s.val; omega
  rw [he]
  exact staged_bands_apply m c n d s

/-- The point's reduce-bias block is the whole column. -/
theorem brBlk_apply (s : Fin 128) : brBlk m c t (ix2 s (0 : Fin 1)) = redB m c (ix1 s) := by
  obtain ⟨-, -, -, -, -, -, -, -, -, -, -, -, e12, e13, -⟩ := idx_facts t
  show V m c main_call0_v4 (((cfg0.win 5).blk t).view.emb (ix2 s (0 : Fin 1))) = _
  have he : ((cfg0.win 5).blk t).view.emb (ix2 s (0 : Fin 1)) = (ix2 s (0 : Fin 1) : S128x1.Idx) := by
    funext a; apply Fin.ext
    match a with
    | ⟨0, _⟩ => show win0_5.index t (0 : Fin 2) * 128 + 1 * s.val = s.val; omega
    | ⟨1, _⟩ => show win0_5.index t (1 : Fin 2) * 1 + 1 * 0 = 0; omega
  rw [he]
  exact staged_redBias_apply m c s

/-- A slot's contribution computed from the point's blocks is the slot's band of sample `2048 T + p`. -/
theorem blockBand_eq (hT : win0_6.index t (0 : Fin 2) = T.val) (n : Fin 5) (p : Fin 2048) (s : Fin 128) :
    blockBand (cntBlk m c t) (flagBlk m c t) (wmBlk m c t) (bmBlk m c t) (wrBlk m c t) n p s
      = band (fun n f => counts m c (ix3 ⟨T.val * 2048 + p.val, by have := T.isLt; have := p.isLt; omega⟩ n f))
          (fun n => FloatOps.sitofp (F := Ideal) .f32 (flags m c (ix2 ⟨T.val * 2048 + p.val, by have := T.isLt; have := p.isLt; omega⟩ n)))
          (fun f d => mapW m c (ix2 f d)) (fun d => mapB m c (ix1 d)) (fun k => redW m c (ix2 k s)) n := by
  unfold blockBand band
  refine Finset.sum_congr rfl fun d _ => ?_
  rw [wrBlk_apply m c t n d s, flagBlk_apply m c t T hT n p, bmBlk_apply m c t d]
  simp only [cntBlk_apply m c t T hT, wmBlk_apply m c t]

/-- Entry `y` of what the body leaves at the point is the result's entry at row `2048 T + y₀`, column `y₁`. -/
theorem out_block_entry (hT : win0_6.index t (0 : Fin 2) = T.val) (y : S2048x128.Idx) :
    out0_6 (F := Ideal) (iblk m c 0 t) (iblk m c 1 t) (iblk m c 2 t) (iblk m c 3 t) (iblk m c 4 t) (iblk m c 5 t) y
      = resultArr m c (ix2 ⟨T.val * 2048 + (y 0).val, by have := T.isLt; have h : (y 0).val < 2048 := (y 0).isLt; omega⟩
          (⟨(y 1).val, (y 1).isLt⟩ : Fin 128)) := by
  obtain ⟨p, s, rfl⟩ : ∃ (p : Fin 2048) (s : Fin 128), y = ix2 p s := ⟨y 0, y 1, eq_ix2 y⟩
  refine (out_entry (cntBlk m c t) (flagBlk m c t) (wmBlk m c t) (bmBlk m c t) (wrBlk m c t) (brBlk m c t) p s).trans ?_
  rw [blockBand_eq m c t T hT 0, blockBand_eq m c t T hT 1, blockBand_eq m c t T hT 2, blockBand_eq m c t T hT 3,
    blockBand_eq m c t T hT 4, brBlk_apply m c t]
  exact entryByBands_eq_entry (counts m c) (flags m c) (mapW m c) (mapB m c) (redW m c) (redB m c)
    ⟨T.val * 2048 + p.val, by have := T.isLt; have := p.isLt; omega⟩ s

end Point

/-! ## What a point writes back, the cover, the array after the run -/

/-- What point `t` writes back is block `t` of the result array. -/
theorem flushed_eq (c : Dev nD) (t : Fin cfg0.N) :
    (dats m 0 c).flushed 6 t = ((cfg0.win 6).blk t).view.read (Elt Ideal) (resultArr m c) := by
  rw [Value.flushed6]
  obtain ⟨-, -, -, -, -, -, -, -, -, -, -, -, -, -, e14, e15⟩ := idx_facts t
  obtain ⟨T, hT⟩ : ∃ T : Fin 16, win0_6.index t (0 : Fin 2) = T.val := ⟨⟨win0_6.index t (0 : Fin 2), by omega⟩, rfl⟩
  funext j
  show out0_6 (F := Ideal) (iblk m c 0 t) (iblk m c 1 t) (iblk m c 2 t) (iblk m c 3 t) (iblk m c 4 t) (iblk m c 5 t) j
    = resultArr m c (((cfg0.win 6).blk t).view.emb j)
  refine (out_block_entry m c t T hT j).trans (congrArg (resultArr m c) (funext fun a => Fin.ext ?_))
  match a with
  | ⟨0, _⟩ => show T.val * 2048 + (j 0).val = win0_6.index t (0 : Fin 2) * 2048 + 1 * (j 0).val; omega
  | ⟨1, _⟩ => show (j 1).val = win0_6.index t (1 : Fin 2) * 128 + 1 * (j 1).val; omega

/-- An index of the result is in point `t`'s block iff each coordinate is in the block's range on its axis. -/
theorem mem_blk (t : Fin cfg0.N) (i : S32768x128.Idx) :
    i ∈ ((cfg0.win 6).blk t).view.set ↔ ∀ a : Fin 2, win0_6.index t a * S2048x128.size a ≤ (i a).val
      ∧ (i a).val < win0_6.index t a * S2048x128.size a + S2048x128.size a := by
  show i ∈ ((View.whole main_v0).slice (win0_6.rect t)).set ↔ _
  rw [View.set_slice_whole, Rect.mem_set_unit]
  exact Iff.rfl

/-- Every entry of the result lies in the block of the point that takes its row's 2048-sample group. -/
theorem cover (i : S32768x128.Idx) : ∃ t : Fin cfg0.N, (cfg0.win 6).flush t = true ∧ i ∈ ((cfg0.win 6).blk t).view.set := by
  have hi0 : (i 0).val < 32768 := (i 0).isLt
  have hi1 : (i 1).val < 128 := (i 1).isLt
  obtain ⟨t, ht⟩ := idx_onto ⟨(i 0).val / 2048, by omega⟩
  have q0 : win0_6.index t (0 : Fin 2) = (i 0).val / 2048 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 128 ≤ (i 1).val ∧ (i 1).val < win0_6.index t (1 : Fin 2) * 128 + 128; omega

/-- The result array after the run. -/
theorem final (c : Dev nD) : (dats m 0 c).arrAt 6 cfg0.N = resultArr m c :=
  (dats m 0 c).arrAt_eq_of_cover 6 (resultArr m c) (fun t _ => flushed_eq m c t) cover

/-- The kernel's run: every weakly fair execution ends with the result array at `result` of the six arguments, the
    arguments unchanged. -/
theorem run : θ_run defs (onTc (τ := τ) (main (F := Ideal))) ⟨m, fun _ => 0, ρ⟩ fun r => ∀ c : Dev nD,
      r.2.mem ((c : Thread nD τ).loc main_v0) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.lean ====
/-
  The sample encoder against its reference, over the extended reals.

  Both programs compute, for sample `b` and output feature `s`,
      relu( Σ_{n < 5} Σ_{d < 64} W_red[64 n + d, s] · code(b, n, d) + b_red[s] ),
      code(b, n, d) = relu( Σ_{f < 64} counts[b, n, f] · W_map[f, d] + b_map[d] ) · mask[b, n].
  The reference lays the five slots' encodings side by side and contracts the 320 columns at once; the kernel works on
  sample-minor panels, contracts slot by slot against that slot's 64-row band of the reduce weights, adds the five
  products onto a zero accumulator and stores the transposed block.  At exact arithmetic the two differ only in the order
  of the factors of each product and in the grouping of one sum, so they are equal on every input, finite or not
  (Proof/SlotSum.lean: `bandForm_eq_concatForm`); the precondition is never opened.

  The kernel's result array is read off its run block by block (Proof/BodyEntry.lean: an entry of the block the body
  stores; Proof/ArrayValue.lean: each block entry is an argument entry, the sixteen blocks tile the result), the
  reference's off its run operation by operation (Proof/RefRead.lean).  Nothing was rewritten when the kernel was
  idealized, so `preserves` asks nothing.
-/
import proofs.«141322_g5703716569288_cont_9to1c4b_55_13_alg».proof.Defs
import proofs.«141322_g5703716569288_cont_9to1c4b_55_13_alg».proof.Proof.Gen.Kernel
import proofs.«141322_g5703716569288_cont_9to1c4b_55_13_alg».proof.Proof.Gen.Kernel.Skeleton
import proofs.«141322_g5703716569288_cont_9to1c4b_55_13_alg».proof.Proof.Gen.Kernel.Launch
import proofs.«141322_g5703716569288_cont_9to1c4b_55_13_alg».proof.Proof.Gen.Kernel.Points
import proofs.«141322_g5703716569288_cont_9to1c4b_55_13_alg».proof.Proof.Gen.Kernel.Frame
import proofs.«141322_g5703716569288_cont_9to1c4b_55_13_alg».proof.Proof.Gen.KernelIdeal
import proofs.«141322_g5703716569288_cont_9to1c4b_55_13_alg».proof.Proof.Gen.KernelIdeal.Skeleton
import proofs.«141322_g5703716569288_cont_9to1c4b_55_13_alg».proof.Proof.Gen.KernelIdeal.Launch
import proofs.«141322_g5703716569288_cont_9to1c4b_55_13_alg».proof.Proof.Gen.KernelIdeal.Points
import proofs.«141322_g5703716569288_cont_9to1c4b_55_13_alg».proof.Proof.Gen.KernelIdeal.Frame
import proofs.«141322_g5703716569288_cont_9to1c4b_55_13_alg».proof.Proof.Gen.ReferenceIdeal
import proofs.«141322_g5703716569288_cont_9to1c4b_55_13_alg».proof.Proof.Gen.Pre_finite_inputs
import proofs.«141322_g5703716569288_cont_9to1c4b_55_13_alg».proof.Proof.Gen.KernelIdeal.Value
import proofs.«141322_g5703716569288_cont_9to1c4b_55_13_alg».proof.Proof.Gen.ReferenceIdeal.Run
import proofs.«141322_g5703716569288_cont_9to1c4b_55_13_alg».proof.Proof.Gen.ReferenceIdeal.Read
import proofs.«141322_g5703716569288_cont_9to1c4b_55_13_alg».proof.Proof.RefRead
import proofs.«141322_g5703716569288_cont_9to1c4b_55_13_alg».proof.Proof.ArrayValue
import Idealize.ShloMosaic.Adequacy
import Idealize.ShloMosaic.Init

noncomputable section

namespace Cert.Proof

open Idealize.ShloMosaic Idealize.SL.Sem Cert.Kernel

/-- The word-level kernel runs and keeps its arguments: its frame. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- The reference is a straight line of host operations: its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at `result` of those
    arguments: the kernel by its blocks, the reference by its operations. -/
theorem algebraic : Cert.algebraic_KernelIdeal_ReferenceIdeal := by
  intro m ρ m' ρ' _ hagree
  refine ⟨fun c => Cert.KernelIdeal.ArrayValue.resultArr m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _ _ _ _).trans ?_
  refine (Cert.ReferenceIdeal.RefValue.reference_eq_result _ _ _ _ _ _).trans ?_
  obtain ⟨h0, h1, h2, h3, h4, h5⟩ := hagree c
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
